-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x256 : Shape := ⟨2, ![16384, 256]⟩
abbrev S128x256 : Shape := ⟨2, ![128, 256]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S128x256 : S_.BroadcastsInDim S128x256 (![] : Fin 0 → Fin S128x256.rank)
  reducesTo_S128x256_S_d0_1 : S128x256.ReducesTo [0, 1] S_

variable [Facts]

def fn {F : FTy → Type} [FloatOps F] (main_arg0 : FVec F S16384x16384 .f32) (main_arg1 : FVec F S16384x256 .f32) (main_arg2 : FVec F S128x256 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  main_v13
-- ==== Kernel.lean ====
abbrev S16384x16384 : Shape := ⟨2, ![16384, 16384]⟩
abbrev S16384x256 : Shape := ⟨2, ![16384, 256]⟩
abbrev S128x256 : Shape := ⟨2, ![128, 256]⟩
abbrev S16384x128 : Shape := ⟨2, ![16384, 128]⟩
abbrev S2048x2048 : Shape := ⟨2, ![2048, 2048]⟩
abbrev S2048x256 : Shape := ⟨2, ![2048, 256]⟩
abbrev S2048x128 : Shape := ⟨2, ![2048, 128]⟩
abbrev S2048x1 : Shape := ⟨2, ![2048, 1]⟩
abbrev S2048 : Shape := ⟨1, ![2048]⟩
abbrev S256x128 : Shape := ⟨2, ![256, 128]⟩

abbrev nBuf : Space → Nat
  | .hbm => 4
  | .vmem => 9
  | .smem => 0
  | _ => 0

abbrev bufTy : (tb : Table) → Fin (tcTables nBuf tb) → BufTy
  | .hbm, ⟨0, _⟩ => ⟨S16384x16384, .f32⟩
  | .hbm, ⟨1, _⟩ => ⟨S16384x256, .f32⟩
  | .hbm, ⟨2, _⟩ => ⟨S128x256, .f32⟩
  | .hbm, ⟨3, _⟩ => ⟨S16384x128, .f32⟩
  | .local _ .vmem, ⟨0, _⟩ => ⟨S2048x2048, .f32⟩
  | .local _ .vmem, ⟨1, _⟩ => ⟨S2048x2048, .f32⟩
  | .local _ .vmem, ⟨2, _⟩ => ⟨S2048x256, .f32⟩
  | .local _ .vmem, ⟨3, _⟩ => ⟨S2048x256, .f32⟩
  | .local _ .vmem, ⟨4, _⟩ => ⟨S128x256, .f32⟩
  | .local _ .vmem, ⟨5, _⟩ => ⟨S2048x128, .f32⟩
  | .local _ .vmem, ⟨6, _⟩ => ⟨S2048x128, .f32⟩
  | .local _ .vmem, ⟨7, _⟩ => ⟨S2048x256, .f32⟩
  | .local _ .vmem, ⟨8, _⟩ => ⟨S2048x1, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_14 : BitVec 32 := 0#32
  let v26 : BitVec 1 := Scalar.cmpi .ne v25 c0_i32_14
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x2048_S2048x2048_0_0 : ∀ a, (![0, 0] : Fin 2 → Nat) a + S2048x2048.size a ≤ S2048x2048.size a
  h_S2048x2048 : 0 < S2048x2048.numel
  natLt_1_32 : 1 < 32
  reduces_S2048x2048_S2048 : S2048x2048.Reduces [1] S2048
  shapeCasts_S2048_S2048x1 : S2048.ShapeCasts S2048x1
  bitsLt_bf16_f32 : FTy.bits .bf16 < FTy.bits .f32
  broadcasts_S2048x1_S2048x256 : S2048x1.Broadcasts S2048x256
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S2048x128_S2048x128_0_0 : ∀ a, (![0, 0] : Fin 2 → Nat) a + S2048x128.size a ≤ S2048x128.size a
  h_S2048x128 : 0 < S2048x128.numel
  dot_S2048x2048_S2048x256_S2048x256_1_0_0_1_n_n_wf : DotDims.WF S2048x2048 S2048x256 S2048x256 [1] [0] [0] [1] [] []
  dot_S2048x256_S256x128_S2048x128_1_0_0_1_n_n_wf : DotDims.WF S2048x256 S256x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S16384x16384.size a
  hwx0_0 : ∀ i : grid0.Coords, EltTy.bits .f32 = 32 ∨ (Rect.block (s := S16384x16384) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S16384x256.size a
  hwx0_1 : ∀ i : grid0.Coords, EltTy.bits .f32 = 32 ∨ (Rect.block (s := S16384x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S16384x128.size a
  hwx0_3 : ∀ i : grid0.Coords, EltTy.bits .f32 = 32 ∨ (Rect.block (s := S16384x128) S2048x128.size (cc0_transform_3 i) (hinb0_3 i)).WholeWords (EltTy.packing .f32)

variable [Facts₀]

def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_arg0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x16384 : Shape := ⟨2, ![16384, 16384]⟩
abbrev S16384x256 : Shape := ⟨2, ![16384, 256]⟩
abbrev S128x256 : Shape := ⟨2, ![128, 256]⟩
abbrev S_ : Shape := ⟨0, ![]⟩
abbrev S16384 : Shape := ⟨1, ![16384]⟩
abbrev S16384x1 : Shape := ⟨2, ![16384, 1]⟩
abbrev S256x128 : Shape := ⟨2, ![256, 128]⟩
abbrev S16384x128 : Shape := ⟨2, ![16384, 128]⟩

abbrev nBuf : Space → Nat
  | .hbm => 18
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x256, .f32⟩
  | .hbm, ⟨2, _⟩ => ⟨S128x256, .f32⟩
  | .hbm, ⟨3, _⟩ => ⟨S_, .f32⟩
  | .hbm, ⟨4, _⟩ => ⟨S16384x16384, .f32⟩
  | .hbm, ⟨5, _⟩ => ⟨S16384x16384, .i1⟩
  | .hbm, ⟨6, _⟩ => ⟨S16384x16384, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S16384x256, .f32⟩
  | .hbm, ⟨13, _⟩ => ⟨S16384x1, .f32⟩
  | .hbm, ⟨14, _⟩ => ⟨S16384x256, .f32⟩
  | .hbm, ⟨15, _⟩ => ⟨S16384x256, .f32⟩
  | .hbm, ⟨16, _⟩ => ⟨S256x128, .f32⟩
  | .hbm, ⟨17, _⟩ => ⟨S16384x128, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S_S16384x16384 : S_.BroadcastsInDim S16384x16384 (![] : Fin 0 → Fin S16384x16384.rank)
  reducesTo_S16384x16384_S16384_d1 : S16384x16384.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x256_0_1 : S16384x1.BroadcastsInDim S16384x256 (![0, 1] : Fin 2 → Fin S16384x256.rank)
  transposes_S128x256_S256x128_1_0 : S128x256.Transposes [1, 0] S256x128
  dot_S16384x16384_S16384x256_S16384x256_1_0_0_1_n_n_wf : DotDims.WF S16384x16384 S16384x256 S16384x256 [1] [0] [0] [1] [] []
  dot_S16384x256_S256x128_S16384x128_1_0_0_1_n_n_wf : DotDims.WF S16384x256 S256x128 S16384x128 [1] [0] [0] [1] [] []

variable [Facts₀]

def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf

class Facts : Prop extends Facts₀ where

variable [Facts]
-- ==== Proof.Pieces.lean ====
/-
  What one run of the kernel body leaves in its buffers, as values.

  The body has three shapes, by the column-tile coordinate of the grid point. At the first column tile it clears the
  two accumulators, then adds this tile's contribution. At a middle tile it only adds. At the last tile it adds, then
  divides the accumulated sums by the count plus one, multiplies with the transposed weights and stores the result
  tile. In every shape the sum accumulator ends at the sum update of (adjacency tile, feature tile, what it held) and
  the count accumulator at the count update of (adjacency tile, what it held) — "what it held" being the cleared
  value zero at the first tile —, and at the last tile the result tile is the last step applied to the two
  accumulators just updated and the weights. Each statement holds for every float instance.
-/
import proofs.«118492_j35536559407742_1_alg».proof.Proof.Gen.KernelIdeal.Frame
import Idealize.ShloMosaic.Lib.Pipeline.Value
import Idealize.ShloMosaic.Lib.Tactic

set_option maxRecDepth 16384

noncomputable section

namespace Cert.KernelIdeal.Piece

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-! ## First column tile: cleared, then updated -/

theorem sum_first (c : Dev nD) (i : grid0.Coords) (arg2 : Memref sig .tc .vmem S2048x2048 .f32) (harg2 : arg2.IsWhole) (arg3 : Memref sig .tc .vmem S2048x256 .f32) (harg3 : arg3.IsWhole) (arg4 : Memref sig .tc .vmem S128x256 .f32) (harg4 : arg4.IsWhole) (arg5 : Memref sig .tc .vmem S2048x128 .f32) (harg5 : arg5.IsWhole) (arg6 : Memref sig .tc .vmem S2048x256 .f32) (harg6 : arg6.IsWhole) (arg7 : Memref sig .tc .vmem S2048x1 .f32) (harg7 : arg7.IsWhole) (hc0 : cond0_0 i) (hc1 : ¬cond0_1 i)
    (x0 : Vec F S2048x2048 .f32) (x1 : Vec F S2048x256 .f32) (x2 : Vec F S128x256 .f32) :
    sout0_A_0 c i arg2 harg2 arg3 harg3 arg4 harg4 arg5 harg5 arg6 harg6 arg7 harg7 hc0 hc1 x0 x1 x2 = k0_pay5 x0 x1 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S2048x256) hz, View.readCov_unit_zero (S := S2048x256) _ hz]
  simp only [View.readAt_eq_ld, harg2.read_unread, harg3.read_unread, harg4.read_unread, harg6.read_unread, harg7.read_unread,
    View.ld_unit_zero (S := S2048x2048) hz, View.ld_unit_zero (S := S2048x256) hz, View.ld_unit_zero (S := S2048x1) hz,
    View.ld_unit_zero (S := S128x256) hz, View.readCov_unit_zero (S := S2048x256) _ hz, View.readCov_unit_zero (S := S2048x1) _ hz]

theorem count_first (c : Dev nD) (i : grid0.Coords) (arg2 : Memref sig .tc .vmem S2048x2048 .f32) (harg2 : arg2.IsWhole) (arg3 : Memref sig .tc .vmem S2048x256 .f32) (harg3 : arg3.IsWhole) (arg4 : Memref sig .tc .vmem S128x256 .f32) (harg4 : arg4.IsWhole) (arg5 : Memref sig .tc .vmem S2048x128 .f32) (harg5 : arg5.IsWhole) (arg6 : Memref sig .tc .vmem S2048x256 .f32) (harg6 : arg6.IsWhole) (arg7 : Memref sig .tc .vmem S2048x1 .f32) (harg7 : arg7.IsWhole) (hc0 : cond0_0 i) (hc1 : ¬cond0_1 i)
    (x0 : Vec F S2048x2048 .f32) (x1 : Vec F S2048x256 .f32) (x2 : Vec F S128x256 .f32) :
    sout0_A_1 c i arg2 harg2 arg3 harg3 arg4 harg4 arg5 harg5 arg6 harg6 arg7 harg7 hc0 hc1 x0 x1 x2 = k0_pay4 x0 (k0_pay2 (F := F)) := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S2048x1) hz, View.readCov_unit_zero (S := S2048x1) _ hz]
  simp only [View.readAt_eq_ld, harg2.read_unread, harg3.read_unread, harg4.read_unread, harg6.read_unread, harg7.read_unread,
    View.ld_unit_zero (S := S2048x2048) hz, View.ld_unit_zero (S := S2048x256) hz, View.ld_unit_zero (S := S2048x1) hz,
    View.ld_unit_zero (S := S128x256) hz, View.readCov_unit_zero (S := S2048x256) _ hz, View.readCov_unit_zero (S := S2048x1) _ hz]

/-! ## A middle column tile: updated over what the point before left -/

theorem sum_middle (c : Dev nD) (i : grid0.Coords) (arg2 : Memref sig .tc .vmem S2048x2048 .f32) (harg2 : arg2.IsWhole) (arg3 : Memref sig .tc .vmem S2048x256 .f32) (harg3 : arg3.IsWhole) (arg4 : Memref sig .tc .vmem S128x256 .f32) (harg4 : arg4.IsWhole) (arg5 : Memref sig .tc .vmem S2048x128 .f32) (harg5 : arg5.IsWhole) (arg6 : Memref sig .tc .vmem S2048x256 .f32) (harg6 : arg6.IsWhole) (arg7 : Memref sig .tc .vmem S2048x1 .f32) (harg7 : arg7.IsWhole) (hc0 : ¬cond0_0 i) (hc1 : ¬cond0_1 i)
    (x0 : Vec F S2048x2048 .f32) (x1 : Vec F S2048x256 .f32) (x2 : Vec F S128x256 .f32) (xs0 : Vec F S2048x256 .f32) (xs1 : Vec F S2048x1 .f32) :
    sout0_B_0 c i arg2 harg2 arg3 harg3 arg4 harg4 arg5 harg5 arg6 harg6 arg7 harg7 hc0 hc1 x0 x1 x2 xs0 xs1 = k0_pay5 x0 x1 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_unit_zero hz]
  simp only [View.readAt_eq_ld, harg2.read_unread, harg3.read_unread, harg4.read_unread, harg6.read_unread, harg7.read_unread,
    View.ld_unit_zero (S := S2048x2048) hz, View.ld_unit_zero (S := S2048x256) hz, View.ld_unit_zero (S := S2048x1) hz,
    View.ld_unit_zero (S := S128x256) hz, View.readCov_unit_zero (S := S2048x256) _ hz, View.readCov_unit_zero (S := S2048x1) _ hz]

theorem count_middle (c : Dev nD) (i : grid0.Coords) (arg2 : Memref sig .tc .vmem S2048x2048 .f32) (harg2 : arg2.IsWhole) (arg3 : Memref sig .tc .vmem S2048x256 .f32) (harg3 : arg3.IsWhole) (arg4 : Memref sig .tc .vmem S128x256 .f32) (harg4 : arg4.IsWhole) (arg5 : Memref sig .tc .vmem S2048x128 .f32) (harg5 : arg5.IsWhole) (arg6 : Memref sig .tc .vmem S2048x256 .f32) (harg6 : arg6.IsWhole) (arg7 : Memref sig .tc .vmem S2048x1 .f32) (harg7 : arg7.IsWhole) (hc0 : ¬cond0_0 i) (hc1 : ¬cond0_1 i)
    (x0 : Vec F S2048x2048 .f32) (x1 : Vec F S2048x256 .f32) (x2 : Vec F S128x256 .f32) (xs0 : Vec F S2048x256 .f32) (xs1 : Vec F S2048x1 .f32) :
    sout0_B_1 c i arg2 harg2 arg3 harg3 arg4 harg4 arg5 harg5 arg6 harg6 arg7 harg7 hc0 hc1 x0 x1 x2 xs0 xs1 = k0_pay4 x0 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_unit_zero hz]
  simp only [View.readAt_eq_ld, harg2.read_unread, harg3.read_unread, harg4.read_unread, harg6.read_unread, harg7.read_unread,
    View.ld_unit_zero (S := S2048x2048) hz, View.ld_unit_zero (S := S2048x256) hz, View.ld_unit_zero (S := S2048x1) hz,
    View.ld_unit_zero (S := S128x256) hz, View.readCov_unit_zero (S := S2048x256) _ hz, View.readCov_unit_zero (S := S2048x1) _ hz]

/-! ## The last column tile: updated, then the result tile stored -/

theorem sum_last (c : Dev nD) (i : grid0.Coords) (arg2 : Memref sig .tc .vmem S2048x2048 .f32) (harg2 : arg2.IsWhole) (arg3 : Memref sig .tc .vmem S2048x256 .f32) (harg3 : arg3.IsWhole) (arg4 : Memref sig .tc .vmem S128x256 .f32) (harg4 : arg4.IsWhole) (arg5 : Memref sig .tc .vmem S2048x128 .f32) (harg5 : arg5.IsWhole) (arg6 : Memref sig .tc .vmem S2048x256 .f32) (harg6 : arg6.IsWhole) (arg7 : Memref sig .tc .vmem S2048x1 .f32) (harg7 : arg7.IsWhole) (hc0 : ¬cond0_0 i) (hc1 : cond0_1 i)
    (x0 : Vec F S2048x2048 .f32) (x1 : Vec F S2048x256 .f32) (x2 : Vec F S128x256 .f32) (xs0 : Vec F S2048x256 .f32) (xs1 : Vec F S2048x1 .f32) :
    sout0_C_0 c i arg2 harg2 arg3 harg3 arg4 harg4 arg5 harg5 arg6 harg6 arg7 harg7 hc0 hc1 x0 x1 x2 xs0 xs1 = k0_pay5 x0 x1 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg6.read_unread, harg7.read_unread,
    View.ld_unit_zero (S := S2048x2048) hz, View.ld_unit_zero (S := S2048x256) hz, View.ld_unit_zero (S := S2048x1) hz,
    View.ld_unit_zero (S := S128x256) hz, View.readCov_unit_zero (S := S2048x256) _ hz, View.readCov_unit_zero (S := S2048x1) _ hz]

theorem count_last (c : Dev nD) (i : grid0.Coords) (arg2 : Memref sig .tc .vmem S2048x2048 .f32) (harg2 : arg2.IsWhole) (arg3 : Memref sig .tc .vmem S2048x256 .f32) (harg3 : arg3.IsWhole) (arg4 : Memref sig .tc .vmem S128x256 .f32) (harg4 : arg4.IsWhole) (arg5 : Memref sig .tc .vmem S2048x128 .f32) (harg5 : arg5.IsWhole) (arg6 : Memref sig .tc .vmem S2048x256 .f32) (harg6 : arg6.IsWhole) (arg7 : Memref sig .tc .vmem S2048x1 .f32) (harg7 : arg7.IsWhole) (hc0 : ¬cond0_0 i) (hc1 : cond0_1 i)
    (x0 : Vec F S2048x2048 .f32) (x1 : Vec F S2048x256 .f32) (x2 : Vec F S128x256 .f32) (xs0 : Vec F S2048x256 .f32) (xs1 : Vec F S2048x1 .f32) :
    sout0_C_1 c i arg2 harg2 arg3 harg3 arg4 harg4 arg5 harg5 arg6 harg6 arg7 harg7 hc0 hc1 x0 x1 x2 xs0 xs1 = k0_pay4 x0 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg6.read_unread, harg7.read_unread,
    View.ld_unit_zero (S := S2048x2048) hz, View.ld_unit_zero (S := S2048x256) hz, View.ld_unit_zero (S := S2048x1) hz,
    View.ld_unit_zero (S := S128x256) hz, View.readCov_unit_zero (S := S2048x256) _ hz, View.readCov_unit_zero (S := S2048x1) _ hz]

theorem result_last (c : Dev nD) (i : grid0.Coords) (arg2 : Memref sig .tc .vmem S2048x2048 .f32) (harg2 : arg2.IsWhole) (arg3 : Memref sig .tc .vmem S2048x256 .f32) (harg3 : arg3.IsWhole) (arg4 : Memref sig .tc .vmem S128x256 .f32) (harg4 : arg4.IsWhole) (arg5 : Memref sig .tc .vmem S2048x128 .f32) (harg5 : arg5.IsWhole) (arg6 : Memref sig .tc .vmem S2048x256 .f32) (harg6 : arg6.IsWhole) (arg7 : Memref sig .tc .vmem S2048x1 .f32) (harg7 : arg7.IsWhole) (hc0 : ¬cond0_0 i) (hc1 : cond0_1 i)
    (x0 : Vec F S2048x2048 .f32) (x1 : Vec F S2048x256 .f32) (x2 : Vec F S128x256 .f32) (xs0 : Vec F S2048x256 .f32) (xs1 : Vec F S2048x1 .f32) :
    out0_C_3 c i arg2 harg2 arg3 harg3 arg4 harg4 arg5 harg5 arg6 harg6 arg7 harg7 hc0 hc1 x0 x1 x2 xs0 xs1 = k0_pay6 (k0_pay5 x0 x1 xs0) (k0_pay4 x0 xs1) x2 := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg6.read_unread, harg7.read_unread,
    View.ld_unit_zero (S := S2048x2048) hz, View.ld_unit_zero (S := S2048x256) hz, View.ld_unit_zero (S := S2048x1) hz,
    View.ld_unit_zero (S := S128x256) hz, View.readCov_unit_zero (S := S2048x256) _ hz, View.readCov_unit_zero (S := S2048x1) _ hz]

end Cert.KernelIdeal.Piece

end
-- ==== Proof.Spec.lean ====
/-
  The mathematics of one graph-convolution layer with neighbour-sum aggregation, stated once over plain
  index-by-index functions on the extended reals, with no program in sight.

  For an adjacency array `A` (16384 × 16384), features `H` (16384 × 256) and weights `K` (128 × 256):
    * `ind a` is the neighbour indicator: 1 where the adjacency entry is not zero, 0 where it is;
    * `deg A i` counts row `i`'s neighbours, `∑ j, ind (A i j)`;
    * `nsum A H i f` sums the neighbours' features, `∑ j, ind (A i j) · H j f`;
    * `layer A H K (i, o) = ∑ f, (nsum A H i f / (deg A i + 1)) · K o f`.
  The column sums are also cut into eight consecutive stretches of 2048 columns: `degUpTo` / `nsumUpTo` are
  the sums over the first `n` stretches. They grow by one stretch at a time (`degUpTo_succ`, `nsumUpTo_succ`),
  start at zero, and after eight stretches are the full sums (`degUpTo_eight`, `nsumUpTo_eight`): addition on
  the extended reals is commutative and associative, which is all a regrouping of a finite sum needs.
-/
import Idealize.ShloMosaic.PureOps.Ideal
import Idealize.ShloMosaic.PureOps.Ideal.Laws
import Idealize.ShloMosaic.Lib.ValueIdx

noncomputable section

open scoped BigOperators

namespace Cert.Gcn

open Idealize.ShloMosaic Idealize.ShloMosaic.ValueIdx

/-- The three argument arrays and the result, as functions of an index. -/
abbrev Adj := (⟨2, ![16384, 16384]⟩ : Shape).Idx → EReal
abbrev Feat := (⟨2, ![16384, 256]⟩ : Shape).Idx → EReal
abbrev Wt := (⟨2, ![128, 256]⟩ : Shape).Idx → EReal
abbrev Res := (⟨2, ![16384, 128]⟩ : Shape).Idx → EReal

/-- The neighbour indicator of one adjacency entry: 1 if it is not zero, else 0. -/
def ind (a : EReal) : EReal := (((Ideal.cmp .une a 0).toNat : ℝ) : EReal)

/-- A natural number as a row or column number (those below 16384 are themselves). -/
def wrap (n : ℕ) : Fin 16384 := ⟨n % 16384, Nat.mod_lt _ (by decide)⟩

theorem wrap_val_of_lt {n : ℕ} (h : n < 16384) : (wrap n).val = n := Nat.mod_eq_of_lt h

theorem wrap_fin (j : Fin 16384) : wrap j.val = j := Fin.ext (Nat.mod_eq_of_lt j.isLt)

/-- Row `i`'s neighbour count. -/
def deg (A : Adj) (i : Fin 16384) : EReal := ∑ j : Fin 16384, ind (A (ix2 i j))

/-- The sum of the features of row `i`'s neighbours, at feature `f`. -/
def nsum (A : Adj) (H : Feat) (i : Fin 16384) (f : Fin 256) : EReal :=
  ∑ j : Fin 16384, ind (A (ix2 i j)) * H (ix2 j f)

/-- The layer's result: the neighbour mean (the row itself counted once in the divisor) through the weights. -/
def layer (one : EReal) (A : Adj) (H : Feat) (K : Wt) : Res := fun y =>
  ∑ f : Fin 256, Ideal.div (nsum A H (y 0) f) (deg A (y 0) + one) * K (ix2 (y 1) f)

/-- The neighbour count over the first `n` stretches of 2048 columns. -/
def degUpTo (A : Adj) (i : Fin 16384) (n : ℕ) : EReal :=
  ∑ j ∈ Finset.range (n * 2048), ind (A (ix2 i (wrap j)))

/-- The neighbours' feature sum over the first `n` stretches of 2048 columns. -/
def nsumUpTo (A : Adj) (H : Feat) (i : Fin 16384) (f : Fin 256) (n : ℕ) : EReal :=
  ∑ j ∈ Finset.range (n * 2048), ind (A (ix2 i (wrap j))) * H (ix2 (wrap j) f)

theorem degUpTo_zero (A : Adj) (i : Fin 16384) : degUpTo A i 0 = 0 := by
  simp [degUpTo]

theorem nsumUpTo_zero (A : Adj) (H : Feat) (i : Fin 16384) (f : Fin 256) : nsumUpTo A H i f 0 = 0 := by
  simp [nsumUpTo]

/-- One more stretch: the sum over stretch `n`'s 2048 columns is added. -/
theorem degUpTo_succ (A : Adj) (i : Fin 16384) (n : ℕ) :
    degUpTo A i (n + 1) = degUpTo A i n + ∑ q : Fin 2048, ind (A (ix2 i (wrap (n * 2048 + q.val)))) := by
  unfold degUpTo
  rw [show (n + 1) * 2048 = n * 2048 + 2048 by ring, Finset.sum_range_add, ← Fin.sum_univ_eq_sum_range
    (fun x => ind (A (ix2 i (wrap (n * 2048 + x))))) 2048]

theorem nsumUpTo_succ (A : Adj) (H : Feat) (i : Fin 16384) (f : Fin 256) (n : ℕ) :
    nsumUpTo A H i f (n + 1) = nsumUpTo A H i f n
      + ∑ q : Fin 2048, ind (A (ix2 i (wrap (n * 2048 + q.val)))) * H (ix2 (wrap (n * 2048 + q.val)) f) := by
  unfold nsumUpTo
  rw [show (n + 1) * 2048 = n * 2048 + 2048 by ring, Finset.sum_range_add, ← Fin.sum_univ_eq_sum_range
    (fun x => ind (A (ix2 i (wrap (n * 2048 + x)))) * H (ix2 (wrap (n * 2048 + x)) f)) 2048]

/-- Eight stretches are every column. -/
theorem degUpTo_eight (A : Adj) (i : Fin 16384) : degUpTo A i 8 = deg A i := by
  unfold degUpTo deg
  rw [show 8 * 2048 = 16384 by norm_num, ← Fin.sum_univ_eq_sum_range (fun x => ind (A (ix2 i (wrap x)))) 16384]
  exact Finset.sum_congr rfl fun j _ => by rw [wrap_fin]

theorem nsumUpTo_eight (A : Adj) (H : Feat) (i : Fin 16384) (f : Fin 256) : nsumUpTo A H i f 8 = nsum A H i f := by
  unfold nsumUpTo nsum
  rw [show 8 * 2048 = 16384 by norm_num,
    ← Fin.sum_univ_eq_sum_range (fun x => ind (A (ix2 i (wrap x))) * H (ix2 (wrap x) f)) 16384]
  exact Finset.sum_congr rfl fun j _ => by rw [wrap_fin]

/-- The two spellings of the indicator the programs use: the comparison "ordered and not equal" widened to 32 bits and
    read as a signed integer, and the comparison "unordered or not equal" read as an unsigned integer. On the extended
    reals every pair is ordered, so both are the indicator. -/
theorem ind_of_one_signed (a : EReal) :
    ((((Ideal.cmp .one a 0).setWidth 32).toInt : ℝ) : EReal) = ind a := by
  unfold ind Ideal.cmp
  by_cases h : a = 0 <;> simp [h]

theorem ind_of_une_unsigned (a : EReal) :
    ((((Ideal.cmp .une a 0).toNat : ℝ)) : EReal) = ind a := rfl

end Cert.Gcn

end
-- ==== Proof.BlockValue.lean ====
/-
  One grid point's arithmetic, read at one element, on the extended reals.

  The kernel body works on a 2048 × 2048 tile `x` of the adjacency array, the matching 2048 × 256 tile `h` of the
  features, and two running accumulators: `a` (2048 × 256, the neighbours' feature sums so far) and `d` (2048 × 1,
  the neighbour counts so far). Element by element:
    * the mask of the tile is the neighbour indicator of each entry (`mask_apply`);
    * the count update adds the tile's row sums of the mask: `d r + ∑ q, ind (x r q)` (`count_apply`);
    * the sum update adds the mask times the feature tile: `a r f + ∑ q, ind (x r q) · h q f` (`accum_apply`) —
      a matrix product into a zero accumulator is the plain sum over the contracted index, and a change of float
      format is the identity;
    * the last step divides by the count plus one and multiplies by the transposed weights:
      `∑ f, (a r f / (d r + 1)) · k o f` (`finish_apply`).
-/
import proofs.«118492_j35536559407742_1_alg».proof.Proof.Gen.KernelIdeal.Skeleton
import proofs.«118492_j35536559407742_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.Gcn

/-- The mask of the adjacency tile at an element is that entry's neighbour indicator. -/
theorem mask_apply (x : Vec Ideal S2048x2048 .f32) (r q : Fin 2048) :
    k0_pay3 (F := Ideal) x (ix2 r q) = ind (x (ix2 r q)) := by
  show ((((Ideal.cmp .one (x (ix2 r q)) (Ideal.ofBits .f32 0x00000000#32)).setWidth 32).toInt : ℝ) : EReal) = _
  rw [Ideal.ofBits_zero_f32]
  exact ind_of_one_signed _

/-- Summing over the columns of a 2048 × 2048 tile: the index the sum visits at row `r`, column `q`. -/
theorem lift_row (r q : Fin 2048) : reduces_S2048x2048_S2048.lift (ix1 r) q = ix2 r q :=
  funext fun a => Fin.ext (by match a with | ⟨0, _⟩ => rfl | ⟨1, _⟩ => rfl)

/-- The count update at row `r`: what was there plus the tile's row sum of the mask. -/
theorem count_apply (x : Vec Ideal S2048x2048 .f32) (d : Vec Ideal S2048x1 .f32) (r : Fin 2048) (z : Fin 1) :
    k0_pay4 (F := Ideal) x d (ix2 r z) = d (ix2 r z) + ∑ q : Fin 2048, ind (x (ix2 r q)) := by
  unfold k0_pay4
  try dsimp only
  rw [shapeCast_self]
  refine congrArg (d (ix2 r z) + ·) ?_
  refine (shapeCast_apply _ shapeCasts_S2048_S2048x1 (ix2 r z) (ix1 r) ?_).trans ?_
  · rw [Shape.rowMajor_val_one, Shape.rowMajor_val_two]
    show r.val = r.val * 1 + z.val
    have := z.isLt
    omega
  refine (Ideal.multiReduction_add_single (k0_pay3 (F := Ideal) x) 0x00000000#32 reduces_S2048x2048_S2048 (.inl rfl) rfl (ix1 r)).trans ?_
  exact Finset.sum_congr rfl fun q _ => (congrArg (k0_pay3 (F := Ideal) x) (lift_row r q)).trans (mask_apply x r q)

/-! The four axis facts of each product: which coordinate of each operand an output index and a contraction index give. -/

theorem lhs1_0 (i : S2048x256.Idx) (q : dot_S2048x2048_S2048x256_S2048x256_1_0_0_1_n_n.contr.Idx) :
    (dot_S2048x2048_S2048x256_S2048x256_1_0_0_1_n_n.lhsIdx i q 0).val = (i 0).val := by
  unfold DotDims.lhsIdx
  rw [dif_neg (show ¬(0 : Fin S2048x2048.rank) ∈ dot_S2048x2048_S2048x256_S2048x256_1_0_0_1_n_n.lhsBatch by decide), dif_pos (show (0 : Fin S2048x2048.rank) ∈ dot_S2048x2048_S2048x256_S2048x256_1_0_0_1_n_n.lhsNonContracting by decide)]
  rfl
theorem lhs1_1 (i : S2048x256.Idx) (q : dot_S2048x2048_S2048x256_S2048x256_1_0_0_1_n_n.contr.Idx) :
    (dot_S2048x2048_S2048x256_S2048x256_1_0_0_1_n_n.lhsIdx i q 1).val = (q ⟨0, by decide⟩).val :=
  dot_S2048x2048_S2048x256_S2048x256_1_0_0_1_n_n.lhsIdx_val_of_single rfl i q
theorem rhs1_0 (i : S2048x256.Idx) (q : dot_S2048x2048_S2048x256_S2048x256_1_0_0_1_n_n.contr.Idx) :
    (dot_S2048x2048_S2048x256_S2048x256_1_0_0_1_n_n.rhsIdx i q 0).val = (q ⟨0, by decide⟩).val :=
  dot_S2048x2048_S2048x256_S2048x256_1_0_0_1_n_n.rhsIdx_val_of_single rfl i q
theorem rhs1_1 (i : S2048x256.Idx) (q : dot_S2048x2048_S2048x256_S2048x256_1_0_0_1_n_n.contr.Idx) :
    (dot_S2048x2048_S2048x256_S2048x256_1_0_0_1_n_n.rhsIdx i q 1).val = (i 1).val := by
  unfold DotDims.rhsIdx
  rw [dif_neg (show ¬(1 : Fin S2048x256.rank) ∈ dot_S2048x2048_S2048x256_S2048x256_1_0_0_1_n_n.rhsBatch by decide), dif_pos (show (1 : Fin S2048x256.rank) ∈ dot_S2048x2048_S2048x256_S2048x256_1_0_0_1_n_n.rhsNonContracting by decide)]
  rfl

theorem lhs2_0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem lhs2_1 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
theorem rhs2_0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
theorem rhs2_1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- A product of a 2048 × 2048 block with a 2048 × 256 block into a zero accumulator, at (r, f): the sum over the
    contracted index of the operands' products. -/
theorem matmul1_apply (l : FVec Ideal S2048x2048 .bf16) (rr : FVec Ideal S2048x256 .bf16) (r : Fin 2048) (f : Fin 256) :
    matmul dot_S2048x2048_S2048x256_S2048x256_1_0_0_1_n_n none l rr (constant S2048x256 .f32 0x00000000#32) (ix2 r f)
      = ∑ q : Fin 2048, l (ix2 r q) * rr (ix2 q f) := by
  refine (Ideal.matmul_constant_zero_apply dot_S2048x2048_S2048x256_S2048x256_1_0_0_1_n_n none l rr (ix2 r f)).trans ?_
  rw [← Equiv.sum_comp (ValueIdx.contrEquiv1 dot_S2048x2048_S2048x256_S2048x256_1_0_0_1_n_n 2048 rfl rfl).symm]
  refine Finset.sum_congr rfl fun k _ => ?_
  have hk := ValueIdx.contrEquiv1_symm_val dot_S2048x2048_S2048x256_S2048x256_1_0_0_1_n_n 2048 rfl rfl k
  have el : dot_S2048x2048_S2048x256_S2048x256_1_0_0_1_n_n.lhsIdx (ix2 r f) ((ValueIdx.contrEquiv1 dot_S2048x2048_S2048x256_S2048x256_1_0_0_1_n_n 2048 rfl rfl).symm k) = ix2 r k := funext fun a => Fin.ext (by
    match a with
    | ⟨0, _⟩ => exact lhs1_0 _ _
    | ⟨1, _⟩ => exact (lhs1_1 _ _).trans hk)
  have er : dot_S2048x2048_S2048x256_S2048x256_1_0_0_1_n_n.rhsIdx (ix2 r f) ((ValueIdx.contrEquiv1 dot_S2048x2048_S2048x256_S2048x256_1_0_0_1_n_n 2048 rfl rfl).symm k) = ix2 k f := funext fun a => Fin.ext (by
    match a with
    | ⟨0, _⟩ => exact (rhs1_0 _ _).trans hk
    | ⟨1, _⟩ => exact rhs1_1 _ _)
  rw [el, er]

/-- A product of a 2048 × 256 block with a 256 × 128 block into a zero accumulator, at (r, o). -/
theorem matmul2_apply (l : FVec Ideal S2048x256 .bf16) (rr : FVec Ideal S256x128 .bf16) (r : Fin 2048) (o : Fin 128) :
    matmul dot_S2048x256_S256x128_S2048x128_1_0_0_1_n_n none l rr (constant S2048x128 .f32 0x00000000#32) (ix2 r o)
      = ∑ f : Fin 256, l (ix2 r f) * rr (ix2 f o) := by
  refine (Ideal.matmul_constant_zero_apply dot_S2048x256_S256x128_S2048x128_1_0_0_1_n_n none l rr (ix2 r o)).trans ?_
  rw [← Equiv.sum_comp (ValueIdx.contrEquiv1 dot_S2048x256_S256x128_S2048x128_1_0_0_1_n_n 256 rfl rfl).symm]
  refine Finset.sum_congr rfl fun k _ => ?_
  have hk := ValueIdx.contrEquiv1_symm_val dot_S2048x256_S256x128_S2048x128_1_0_0_1_n_n 256 rfl rfl k
  have el : dot_S2048x256_S256x128_S2048x128_1_0_0_1_n_n.lhsIdx (ix2 r o) ((ValueIdx.contrEquiv1 dot_S2048x256_S256x128_S2048x128_1_0_0_1_n_n 256 rfl rfl).symm k) = ix2 r k := funext fun a => Fin.ext (by
    match a with
    | ⟨0, _⟩ => exact lhs2_0 _ _
    | ⟨1, _⟩ => exact (lhs2_1 _ _).trans hk)
  have er : dot_S2048x256_S256x128_S2048x128_1_0_0_1_n_n.rhsIdx (ix2 r o) ((ValueIdx.contrEquiv1 dot_S2048x256_S256x128_S2048x128_1_0_0_1_n_n 256 rfl rfl).symm k) = ix2 k o := funext fun a => Fin.ext (by
    match a with
    | ⟨0, _⟩ => exact (rhs2_0 _ _).trans hk
    | ⟨1, _⟩ => exact rhs2_1 _ _)
  rw [el, er]

/-- The sum update at (r, f): what was there plus the mask row times the feature column. -/
theorem accum_apply (x : Vec Ideal S2048x2048 .f32) (h : Vec Ideal S2048x256 .f32) (a : Vec Ideal S2048x256 .f32)
    (r : Fin 2048) (f : Fin 256) :
    k0_pay5 (F := Ideal) x h a (ix2 r f) = a (ix2 r f) + ∑ q : Fin 2048, ind (x (ix2 r q)) * h (ix2 q f) := by
  unfold k0_pay5
  try dsimp only
  rw [shapeCast_self]
  refine congrArg (a (ix2 r f) + ·) ?_
  refine (matmul1_apply _ _ r f).trans ?_
  exact Finset.sum_congr rfl fun q _ => congrArg (· * h (ix2 q f)) (mask_apply x r q)

/-- The count column stretched over the 256 features reads the count of its row. -/
theorem stretch_apply (v : FVec Ideal S2048x1 .f32) (r : Fin 2048) (f : Fin 256) :
    broadcastTo S2048x256 v broadcasts_S2048x1_S2048x256 (ix2 r f) = v (ix2 r 0) :=
  broadcastTo_apply v broadcasts_S2048x1_S2048x256 (ix2 r f) (ix2 r 0) fun a => by
    match a with
    | ⟨0, _⟩ => show r.val = if (2048 : Nat) = 1 then 0 else r.val; rw [if_neg (by decide)]
    | ⟨1, _⟩ => show 0 = if (1 : Nat) = 1 then 0 else f.val; rw [if_pos rfl]

/-- The last step at (r, o): the accumulated sums divided by the count plus one, through the transposed weights. -/
theorem finish_apply (a : Vec Ideal S2048x256 .f32) (d : Vec Ideal S2048x1 .f32) (k : Vec Ideal S128x256 .f32)
    (r : Fin 2048) (o : Fin 128) :
    k0_pay6 (F := Ideal) a d k (ix2 r o)
      = ∑ f : Fin 256, Ideal.div (a (ix2 r f)) (d (ix2 r 0) + Ideal.ofBits .f32 0x3F800000#32) * k (ix2 o f) := by
  unfold k0_pay6
  try dsimp only
  refine (matmul2_apply _ _ r o).trans ?_
  refine Finset.sum_congr rfl fun f _ => ?_
  have e1 : (transpose S256x128 [1, 0] (truncf .bf16 k bitsLt_bf16_f32 : FVec Ideal S128x256 .bf16) transposes_S128x256_p1_0_S256x128) (ix2 f o)
      = k (ix2 o f) :=
    transpose_ix2_apply (truncf .bf16 k bitsLt_bf16_f32 : FVec Ideal S128x256 .bf16) transposes_S128x256_p1_0_S256x128 f o
  rw [e1]
  refine congrArg (· * k (ix2 o f)) ?_
  show Ideal.div (a (ix2 r f)) (broadcastTo S2048x256 (addf (F := Ideal) d (broadcast S2048x1 (Scalar.ofBits (F := Ideal) .f32 0x3F800000#32)) : FVec Ideal S2048x1 .f32) broadcasts_S2048x1_S2048x256 (ix2 r f)) = _
  rw [stretch_apply]
  rfl

end Cert.KernelIdeal.Block

end
-- ==== Proof.Fold.lean ====
/-
  The kernel's run, point by point, as the specification's partial sums; and the result array after the run.

  The grid has 8 × 8 points, visited row tile by row tile: point `t` works on row tile `t / 8` and column tile
  `t % 8`. Its adjacency tile holds rows `2048·(t/8) + r` and columns `2048·(t%8) + q` of the adjacency array, its
  feature tile rows `2048·(t%8) + q` of the features; the weights come whole.
  After point `t` the two accumulators hold, for each row `r` of the row tile, the neighbour count and the neighbours'
  feature sums over the first `t % 8 + 1` stretches of 2048 columns (`counts_eq`, `sums_eq`): at the first column tile
  the cleared accumulators are the empty sums, and every point adds exactly its stretch. At the last column tile all
  eight stretches are in, so the tile it stores is the layer function's block of rows (`result_eq`); those tiles are
  written back one per row tile and together cover the result array (`final`).
-/
import proofs.«118492_j35536559407742_1_alg».proof.Proof.Pieces
import proofs.«118492_j35536559407742_1_alg».proof.Proof.BlockValue
import proofs.«118492_j35536559407742_1_alg».proof.Proof.Gen.KernelIdeal.Value

set_option maxRecDepth 16384

noncomputable section

open scoped BigOperators

namespace Cert.KernelIdeal.Fold

open Cert.KernelIdeal Cert.KernelIdeal.Gen Idealize.ShloMosaic Idealize.ShloMosaic.TcCoe Idealize.SL.Sem
open Idealize.ShloMosaic.ValueIdx Cert.Gcn Cert.KernelIdeal.Block
open Idealize.ShloMosaic.Pipeline (Dat)

variable (m : (ℓ : Loc nD τ sig) → Buf (Elt Ideal) ℓ) (ρ : Dev nD → PrngReg)

/-- The three argument arrays as the region finds them, and each point's tiles of them, at their literal shapes. -/
abbrev Aarr (c : Dev nD) : Vec Ideal S16384x16384 .f32 := V m c main_arg0
abbrev Harr (c : Dev nD) : Vec Ideal S16384x256 .f32 := V m c main_arg1
abbrev Karr (c : Dev nD) : Vec Ideal S128x256 .f32 := V m c main_arg2
abbrev ablk (c : Dev nD) (t : Fin cfg0.N) : Vec Ideal S2048x2048 .f32 := iblk m c 0 t
abbrev hblk (c : Dev nD) (t : Fin cfg0.N) : Vec Ideal S2048x256 .f32 := iblk m c 1 t
abbrev kblk (c : Dev nD) (t : Fin cfg0.N) : Vec Ideal S128x256 .f32 := iblk m c 2 t

/-- The literal one the kernel adds to the count. -/
abbrev one : EReal := Ideal.ofBits .f32 0x3F800000#32

/-- Which tile each window shows at point `t`: row tile `t / 8`, column tile `t % 8` — decided over the grid. -/
theorem idx_facts : ∀ t : Fin cfg0.N, win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = 0 ∧ win0_2.index t (1 : Fin 2) = 0
    ∧ win0_3.index t (0 : Fin 2) = t.val / 8 ∧ win0_3.index t (1 : Fin 2) = 0 :=
  (by decide +kernel : ∀ t : Fin grid0.N, _)

theorem t_lt (t : Fin cfg0.N) : t.val < 64 := lt_of_lt_of_eq t.isLt (show cfg0.N = 64 from N_0)

/-- The adjacency tile at point `t`, element (r, q): row `2048·(t/8) + r`, column `2048·(t%8) + q` of the array. -/
theorem ablk_apply (c : Dev nD) (t : Fin cfg0.N) (r q : Fin 2048) :
    ablk m c t (ix2 r q) = Aarr m c (ix2 (wrap (t.val / 8 * 2048 + r.val)) (wrap (t.val % 8 * 2048 + q.val))) := by
  obtain ⟨e0, e1, -⟩ := idx_facts t
  have hN := t_lt t
  unfold ablk Aarr iblk
  rw [View.read_apply]
  show V m c main_arg0 (((cfg0.win 0).blk t).view.emb (ix2 r q)) = V m c main_arg0 _
  refine congrArg (V m c main_arg0) (funext fun a => Fin.ext ?_)
  match a with
  | ⟨0, _⟩ =>
    show win0_0.index t (0 : Fin 2) * 2048 + 1 * r.val = (t.val / 8 * 2048 + r.val) % 16384
    have := r.isLt; omega
  | ⟨1, _⟩ =>
    show win0_0.index t (1 : Fin 2) * 2048 + 1 * q.val = (t.val % 8 * 2048 + q.val) % 16384
    have := q.isLt; omega

/-- The feature tile at point `t`, element (q, f): row `2048·(t%8) + q` of the features. -/
theorem hblk_apply (c : Dev nD) (t : Fin cfg0.N) (q : Fin 2048) (f : Fin 256) :
    hblk m c t (ix2 q f) = Harr m c (ix2 (wrap (t.val % 8 * 2048 + q.val)) f) := by
  obtain ⟨-, -, e2, e3, -⟩ := idx_facts t
  have hN := t_lt t
  unfold hblk Harr iblk
  rw [View.read_apply]
  show V m c main_arg1 (((cfg0.win 1).blk t).view.emb (ix2 q f)) = V m c main_arg1 _
  refine congrArg (V m c main_arg1) (funext fun a => Fin.ext ?_)
  match a with
  | ⟨0, _⟩ =>
    show win0_1.index t (0 : Fin 2) * 2048 + 1 * q.val = (t.val % 8 * 2048 + q.val) % 16384
    have := q.isLt; omega
  | ⟨1, _⟩ =>
    show win0_1.index t (1 : Fin 2) * 256 + 1 * f.val = f.val
    omega

/-- The weights come whole at every point. -/
theorem kblk_apply (c : Dev nD) (t : Fin cfg0.N) (o : Fin 128) (f : Fin 256) :
    kblk m c t (ix2 o f) = Karr m c (ix2 o f) := by
  obtain ⟨-, -, -, -, e4, e5, -⟩ := idx_facts t
  unfold kblk Karr iblk
  rw [View.read_apply]
  show V m c main_arg2 (((cfg0.win 2).blk t).view.emb (ix2 o f)) = V m c main_arg2 _
  refine congrArg (V m c main_arg2) (funext fun a => Fin.ext ?_)
  match a with
  | ⟨0, _⟩ =>
    show win0_2.index t (0 : Fin 2) * 128 + 1 * o.val = o.val
    omega
  | ⟨1, _⟩ =>
    show win0_2.index t (1 : Fin 2) * 256 + 1 * f.val = f.val
    omega

/-! ## What each point leaves, over what the point before left -/

/-- What the sum accumulator holds when point `t`'s update reads it: zero at a first column tile (it has just been
    cleared), else what the point before left. -/
def prevSum (c : Dev nD) (t : Fin cfg0.N) : Vec Ideal S2048x256 .f32 :=
  if t.val % 8 = 0 then k0_pay1 (F := Ideal) else (outsAt0 m c (t.val - 1) (Nat.lt_of_le_of_lt (Nat.sub_le _ _) t.isLt)).2.1

/-- The same for the count accumulator. -/
def prevCount (c : Dev nD) (t : Fin cfg0.N) : Vec Ideal S2048x1 .f32 :=
  if t.val % 8 = 0 then k0_pay2 (F := Ideal) else (outsAt0 m c (t.val - 1) (Nat.lt_of_le_of_lt (Nat.sub_le _ _) t.isLt)).2.2

/-- After point `t` the sum accumulator is the sum update of the point's tiles over `prevSum`. -/
theorem sum_at (c : Dev nD) (t : Fin cfg0.N) :
    (outsAt0 m c t.val t.isLt).2.1 = k0_pay5 (F := Ideal) (ablk m c t) (hblk m c t) (prevSum m c t) := by
  have hN := t_lt t
  unfold prevSum
  by_cases h0 : t.val % 8 = 0
  · have h1 : ¬t.val % 8 = 7 := by omega
    rw [if_pos h0, outsAt0_A m c t h0 h1]
    dsimp only
    exact Piece.sum_first (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)
  · rw [if_neg h0]
    by_cases h1 : t.val % 8 = 7
    · rw [outsAt0_C m c t h0 h1]
      dsimp only
      exact Piece.sum_last (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2
    · rw [outsAt0_B m c t h0 h1]
      dsimp only
      exact Piece.sum_middle (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

/-- After point `t` the count accumulator is the count update of the point's adjacency tile over `prevCount`. -/
theorem count_at (c : Dev nD) (t : Fin cfg0.N) :
    (outsAt0 m c t.val t.isLt).2.2 = k0_pay4 (F := Ideal) (ablk m c t) (prevCount m c t) := by
  have hN := t_lt t
  unfold prevCount
  by_cases h0 : t.val % 8 = 0
  · have h1 : ¬t.val % 8 = 7 := by omega
    rw [if_pos h0, outsAt0_A m c t h0 h1]
    dsimp only
    exact Piece.count_first (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)
  · rw [if_neg h0]
    by_cases h1 : t.val % 8 = 7
    · rw [outsAt0_C m c t h0 h1]
      dsimp only
      exact Piece.count_last (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2
    · rw [outsAt0_B m c t h0 h1]
      dsimp only
      exact Piece.count_middle (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

/-- At a last column tile the stored result tile is the last step applied to the two accumulators as the point leaves them. -/
theorem result_at (c : Dev nD) (t : Fin cfg0.N) (h1 : t.val % 8 = 7) :
    (outsAt0 m c t.val t.isLt).1
      = k0_pay6 (F := Ideal) (outsAt0 m c t.val t.isLt).2.1 (outsAt0 m c t.val t.isLt).2.2 (kblk m c t) := by
  have h0 : ¬t.val % 8 = 0 := by omega
  have es := sum_at m c t
  have ec := count_at m c t
  unfold prevSum at es
  unfold prevCount at ec
  rw [if_neg h0] at es ec
  rw [es, ec, outsAt0_C m c t h0 h1]
  dsimp only
  exact Piece.result_last (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

/-! ## The accumulators are the partial sums -/

theorem cleared_sum (r : Fin 2048) (f : Fin 256) : k0_pay1 (F := Ideal) (ix2 r f) = 0 := by
  unfold k0_pay1
  rw [shapeCast_self]
  exact Ideal.ofBits_zero_f32

theorem cleared_count (r : Fin 2048) (z : Fin 1) : k0_pay2 (F := Ideal) (ix2 r z) = 0 := by
  unfold k0_pay2
  rw [shapeCast_self]
  exact Ideal.ofBits_zero_f32

/-- One point's step for the sums: if the accumulator read holds the sums over the first `t % 8` stretches, the
    point leaves the sums over the first `t % 8 + 1`. -/
theorem step_sum (c : Dev nD) (t : Fin cfg0.N)
    (hprev : ∀ (r : Fin 2048) (f : Fin 256), prevSum m c t (ix2 r f)
      = nsumUpTo (Aarr m c) (Harr m c) (wrap (t.val / 8 * 2048 + r.val)) f (t.val % 8))
    (r : Fin 2048) (f : Fin 256) :
    (outsAt0 m c t.val t.isLt).2.1 (ix2 r f)
      = nsumUpTo (Aarr m c) (Harr m c) (wrap (t.val / 8 * 2048 + r.val)) f (t.val % 8 + 1) := by
  rw [sum_at, accum_apply, hprev, nsumUpTo_succ]
  refine congrArg (_ + ·) (Finset.sum_congr rfl fun q _ => ?_)
  rw [ablk_apply, hblk_apply]

theorem step_count (c : Dev nD) (t : Fin cfg0.N)
    (hprev : ∀ (r : Fin 2048) (z : Fin 1), prevCount m c t (ix2 r z)
      = degUpTo (Aarr m c) (wrap (t.val / 8 * 2048 + r.val)) (t.val % 8))
    (r : Fin 2048) (z : Fin 1) :
    (outsAt0 m c t.val t.isLt).2.2 (ix2 r z)
      = degUpTo (Aarr m c) (wrap (t.val / 8 * 2048 + r.val)) (t.val % 8 + 1) := by
  rw [count_at, count_apply, hprev, degUpTo_succ]
  refine congrArg (_ + ·) (Finset.sum_congr rfl fun q _ => ?_)
  rw [ablk_apply]

/-- After point `n` the sum accumulator holds, row by row of the row tile, the neighbours' feature sums over the first
    `n % 8 + 1` stretches of columns. By induction on the point. -/
theorem sums_eq (c : Dev nD) (n : ℕ) : ∀ (h : n < cfg0.N) (r : Fin 2048) (f : Fin 256),
    (outsAt0 m c n h).2.1 (ix2 r f)
      = nsumUpTo (Aarr m c) (Harr m c) (wrap (n / 8 * 2048 + r.val)) f (n % 8 + 1) := by
  induction n with
  | zero =>
    intro h r f
    refine step_sum m c ⟨0, h⟩ (fun r f => ?_) r f
    unfold prevSum
    rw [if_pos (show (⟨0, h⟩ : Fin cfg0.N).val % 8 = 0 from rfl), cleared_sum]
    exact (nsumUpTo_zero _ _ _ _).symm
  | succ n ih =>
    intro h r f
    refine step_sum m c ⟨n + 1, h⟩ (fun r f => ?_) r f
    unfold prevSum
    by_cases h0 : (n + 1) % 8 = 0
    · rw [if_pos (show (⟨n + 1, h⟩ : Fin cfg0.N).val % 8 = 0 from h0), cleared_sum]
      show (0 : EReal) = nsumUpTo _ _ _ f ((n + 1) % 8)
      rw [h0]
      exact (nsumUpTo_zero _ _ _ _).symm
    · rw [if_neg (show ¬(⟨n + 1, h⟩ : Fin cfg0.N).val % 8 = 0 from h0)]
      show (outsAt0 m c n _).2.1 (ix2 r f) = nsumUpTo _ _ (wrap ((n + 1) / 8 * 2048 + r.val)) f ((n + 1) % 8)
      rw [ih (Nat.lt_of_succ_lt h) r f, show n / 8 = (n + 1) / 8 by omega, show n % 8 + 1 = (n + 1) % 8 by omega]

/-- The same for the count accumulator. -/
theorem counts_eq (c : Dev nD) (n : ℕ) : ∀ (h : n < cfg0.N) (r : Fin 2048) (z : Fin 1),
    (outsAt0 m c n h).2.2 (ix2 r z)
      = degUpTo (Aarr m c) (wrap (n / 8 * 2048 + r.val)) (n % 8 + 1) := by
  induction n with
  | zero =>
    intro h r z
    refine step_count m c ⟨0, h⟩ (fun r z => ?_) r z
    unfold prevCount
    rw [if_pos (show (⟨0, h⟩ : Fin cfg0.N).val % 8 = 0 from rfl), cleared_count]
    exact (degUpTo_zero _ _).symm
  | succ n ih =>
    intro h r z
    refine step_count m c ⟨n + 1, h⟩ (fun r z => ?_) r z
    unfold prevCount
    by_cases h0 : (n + 1) % 8 = 0
    · rw [if_pos (show (⟨n + 1, h⟩ : Fin cfg0.N).val % 8 = 0 from h0), cleared_count]
      show (0 : EReal) = degUpTo _ _ ((n + 1) % 8)
      rw [h0]
      exact (degUpTo_zero _ _).symm
    · rw [if_neg (show ¬(⟨n + 1, h⟩ : Fin cfg0.N).val % 8 = 0 from h0)]
      show (outsAt0 m c n _).2.2 (ix2 r z) = degUpTo _ (wrap ((n + 1) / 8 * 2048 + r.val)) ((n + 1) % 8)
      rw [ih (Nat.lt_of_succ_lt h) r z, show n / 8 = (n + 1) / 8 by omega, show n % 8 + 1 = (n + 1) % 8 by omega]

/-! ## The result array -/

/-- What the result array ends holding: the layer function of the argument arrays. -/
abbrev result (c : Dev nD) : Buf (Elt Ideal) ((c : Thread nD τ).loc main_v0) :=
  layer one (Aarr m c) (Harr m c) (Karr m c)

/-- The tile a last-column point stores, at (r, o), is the layer function at row `2048·(t/8) + r`. -/
theorem result_eq (c : Dev nD) (t : Fin cfg0.N) (h1 : t.val % 8 = 7) (j : S2048x128.Idx) :
    (outsAt0 m c t.val t.isLt).1 j
      = layer one (Aarr m c) (Harr m c) (Karr m c) (ix2 (wrap (t.val / 8 * 2048 + (j 0).val)) (j 1)) := by
  obtain ⟨r, o, rfl⟩ : ∃ (r : Fin 2048) (o : Fin 128), j = ix2 r o := ⟨j 0, j 1, eq_ix2 j⟩
  have e8 : t.val % 8 + 1 = 8 := by omega
  rw [result_at m c t h1, finish_apply]
  show _ = ∑ f : Fin 256, Ideal.div (nsum (Aarr m c) (Harr m c) (wrap (t.val / 8 * 2048 + r.val)) f)
    (deg (Aarr m c) (wrap (t.val / 8 * 2048 + r.val)) + one) * Karr m c (ix2 o f)
  refine Finset.sum_congr rfl fun f _ => ?_
  rw [sums_eq m c t.val t.isLt r f, counts_eq m c t.val t.isLt r 0, kblk_apply, e8, nsumUpTo_eight, degUpTo_eight]

/-- What a writing point writes back is its block of the layer function. -/
theorem flushed_eq (c : Dev nD) (t : Fin cfg0.N) (hf : (cfg0.win 3).flush t = true) :
    (dats m 0 c).flushed 3 t = ((cfg0.win 3).blk t).view.read (Elt Ideal) (result m c) := by
  have h1 : t.val % 8 = 7 := (flush0_3 t).mp hf
  have hN := t_lt t
  obtain ⟨-, -, -, -, -, -, e6, e7⟩ := idx_facts t
  rw [Value.flushed3]
  funext j
  show (outsAt0 m c t.val t.isLt).1 j = result m c (((cfg0.win 3).blk t).view.emb j)
  rw [result_eq m c t h1 j]
  refine congrArg (layer one (Aarr m c) (Harr m c) (Karr m c)) (funext fun a => Fin.ext ?_)
  have hj0 : (j 0).val < 2048 := (j 0).isLt
  match a with
  | ⟨0, _⟩ =>
    show (t.val / 8 * 2048 + (j 0).val) % 16384 = win0_3.index t (0 : Fin 2) * 2048 + 1 * (j 0).val
    omega
  | ⟨1, _⟩ =>
    show (j 1).val = win0_3.index t (1 : Fin 2) * 128 + 1 * (j 1).val
    omega

/-- An index of the result array is in point `t`'s block iff each coordinate is in the block's range on its axis. -/
theorem mem_blk (t : Fin cfg0.N) (i : S16384x128.Idx) :
    i ∈ ((cfg0.win 3).blk t).view.set ↔ ∀ a : Fin 2, win0_3.index t a * S2048x128.size a ≤ (i a).val ∧ (i a).val < win0_3.index t a * S2048x128.size a + S2048x128.size a := by
  show i ∈ ((View.whole main_v0).slice (win0_3.rect t)).set ↔ _
  rw [View.set_slice_whole, Rect.mem_set_unit]
  exact Iff.rfl

/-- Every row of the result array lies in the block of the last-column point of its row tile. -/
theorem cover (i : S16384x128.Idx) :
    ∃ t : Fin cfg0.N, (cfg0.win 3).flush t = true ∧ i ∈ ((cfg0.win 3).blk t).view.set := by
  have hi0 : (i 0).val < 16384 := (i 0).isLt
  have hi1 : (i 1).val < 128 := (i 1).isLt
  have hN : cfg0.N = 64 := N_0
  let t : Fin cfg0.N := ⟨(i 0).val / 2048 * 8 + 7, by rw [hN]; omega⟩
  have htv : t.val = (i 0).val / 2048 * 8 + 7 := rfl
  obtain ⟨-, -, -, -, -, -, e6, e7⟩ := idx_facts t
  refine ⟨t, (flush0_3 t).mpr (by rw [htv]; omega), ?_⟩
  rw [mem_blk]
  intro a
  match a with
  | ⟨0, _⟩ =>
    show win0_3.index t (0 : Fin 2) * 2048 ≤ (i 0).val ∧ (i 0).val < win0_3.index t (0 : Fin 2) * 2048 + 2048
    rw [e6, htv]; omega
  | ⟨1, _⟩ =>
    show win0_3.index t (1 : Fin 2) * 128 ≤ (i 1).val ∧ (i 1).val < win0_3.index t (1 : Fin 2) * 128 + 128
    rw [e7]; omega

/-- The result array after the run is the layer function of the argument arrays. -/
theorem final (c : Dev nD) : (dats m 0 c).arrAt 3 cfg0.N = result m c :=
  (dats m 0 c).arrAt_eq_of_cover 3 (result m c) (flushed_eq m c) cover

/-- The run, read: the result array at the layer function of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Fold

end
-- ==== Proof.RefLayer.lean ====
/-
  The reference program's result is the layer function of the specification.

  The reference builds the neighbour indicator of every adjacency entry, sums it along each row and adds one
  (the divisor), multiplies the indicator matrix with the features, divides row by row, and multiplies with the
  transposed weights. Read index by index on the extended reals — a host matrix product and a host row sum are
  plain finite sums there — that is `layer` at the literal one: the same sums over the same index sets, with the
  reference's starting value zero of its row sum absorbed (`0 + s = s`).
-/
import proofs.«118492_j35536559407742_1_alg».proof.Proof.Gen.ReferenceIdeal.Read
import proofs.«118492_j35536559407742_1_alg».proof.Proof.Spec

noncomputable section

open scoped BigOperators

namespace Cert.ReferenceIdeal.RefLayer

open Cert.ReferenceIdeal Cert.ReferenceIdeal.Gen Cert.ReferenceIdeal.Read Idealize.ShloMosaic Idealize.ShloMosaic.ValueIdx Cert.Gcn

/-- The reference's indicator matrix at an entry. -/
theorem indicator_apply (A : Adj) (x : S16384x16384.Idx) : val_main_v2 (F := Ideal) A x = ind (A x) := by
  rw [val_main_v2_apply, val_main_v1_apply, val_main_v0_apply, val_main_cst_apply]
  show (((Ideal.cmp .une (A x) (Ideal.ofBits .f32 0x00000000#32)).toNat : ℝ) : EReal) = _
  rw [Ideal.ofBits_zero_f32]
  rfl

/-- The indices the generated reading lemmas visit, written by coordinates. -/
theorem lidx11 (i : Fin 16384) (o : Fin 128) (k : Fin 256) : lidx_main_v11 (ix2 i o) k = ix2 i k :=
  funext fun a => by match a with | ⟨0, _⟩ => rfl | ⟨1, _⟩ => rfl
theorem ridx11 (i : Fin 16384) (o : Fin 128) (k : Fin 256) : idx_main_v10 (ridx_main_v11 (ix2 i o) k) = ix2 o k :=
  funext fun a => by match a with | ⟨0, _⟩ => rfl | ⟨1, _⟩ => rfl
theorem lidx6 (i : Fin 16384) (f : Fin 256) (k : Fin 16384) : lidx_main_v6 (ix2 i f) k = ix2 i k :=
  funext fun a => by match a with | ⟨0, _⟩ => rfl | ⟨1, _⟩ => rfl
theorem ridx6 (i : Fin 16384) (f : Fin 256) (k : Fin 16384) : ridx_main_v6 (ix2 i f) k = ix2 k f :=
  funext fun a => by match a with | ⟨0, _⟩ => rfl | ⟨1, _⟩ => rfl
theorem idx3 (i : Fin 16384) (f : Fin 256) (k : Fin 16384) : idx_main_v3 (idx_main_v7 (idx_main_v8 (ix2 i f))) k = ix2 i k :=
  funext fun a => by match a with | ⟨0, _⟩ => rfl | ⟨1, _⟩ => rfl

/-- The reference's product of the indicator matrix with the features, at (i, f): the neighbours' feature sum. -/
theorem nsum_apply (A : Adj) (H : Feat) (i : Fin 16384) (f : Fin 256) :
    val_main_v6 (F := Ideal) A H (ix2 i f) = nsum A H i f := by
  rw [val_main_v6_apply]
  unfold nsum
  refine Finset.sum_congr rfl fun k _ => ?_
  rw [indicator_apply, lidx6, ridx6]

/-- The reference's divisor at (i, f): the neighbour count of row `i` plus the literal one. -/
theorem divisor_apply (A : Adj) (i : Fin 16384) (f : Fin 256) :
    val_main_v8 (F := Ideal) A (ix2 i f) = deg A i + Ideal.ofBits .f32 0x3F800000#32 := by
  rw [val_main_v8_apply, val_main_v7_apply, val_main_v5_apply, val_main_v3_apply, val_main_v4_apply,
    val_main_cst_1_apply, val_main_cst_0_apply]
  show (Ideal.ofBits .f32 0x00000000#32 + ∑ k : Fin 16384, val_main_v2 (F := Ideal) A (idx_main_v3 (idx_main_v7 (idx_main_v8 (ix2 i f))) k))
      + Ideal.ofBits .f32 0x3F800000#32 = _
  rw [Ideal.ofBits_zero_f32, zero_add]
  unfold deg
  refine congrArg (· + Ideal.ofBits .f32 0x3F800000#32) (Finset.sum_congr rfl fun k _ => ?_)
  rw [indicator_apply, idx3]

/-- The reference computes the layer. -/
theorem ref_eq_layer (A : Adj) (H : Feat) (K : Wt) :
    val_main_v11 (F := Ideal) A H K = layer (Ideal.ofBits .f32 0x3F800000#32) A H K := by
  funext y
  obtain ⟨i, o, rfl⟩ : ∃ (i : Fin 16384) (o : Fin 128), y = ix2 i o := ⟨y 0, y 1, eq_ix2 y⟩
  rw [val_main_v11_apply]
  unfold layer
  refine Finset.sum_congr rfl fun f _ => ?_
  rw [val_main_v10_apply, ridx11, lidx11, val_main_v9_apply]
  show Ideal.div (val_main_v6 (F := Ideal) A H (ix2 i f)) (val_main_v8 (F := Ideal) A (ix2 i f)) * K (ix2 o f) = _
  rw [nsum_apply, divisor_apply]

end Cert.ReferenceIdeal.RefLayer

end
-- ==== Proof.lean ====
/-
  One graph-convolution layer: a tiled kernel against its whole-array reference, over the extended reals.

  Both programs compute, for an adjacency array A, features H and weights K,
      out (i, o) = ∑ f, ((∑ j, ind (A i j) · H j f) / (∑ j, ind (A i j) + 1)) · K o f,
  where `ind` is 1 on a non-zero adjacency entry and 0 on a zero one. The reference does it with whole-array
  operations. The kernel walks an 8 × 8 grid of 2048 × 2048 adjacency tiles; along each row of tiles it keeps the
  inner sums in two accumulators, adding one stretch of 2048 columns per point, and at the row's last tile divides
  and multiplies with the weights. On the extended reals a change of float format is the identity, a matrix product
  is a finite sum of products, and a finite sum may be cut into consecutive stretches (addition is commutative and
  associative there), so the accumulated sums are the whole sums and the two results agree entry by entry. No
  finiteness of the inputs is used. The kernel's idealization is the kernel's own text read on the extended reals,
  so nothing is owed for it.
-/
import proofs.«118492_j35536559407742_1_alg».proof.Defs
import proofs.«118492_j35536559407742_1_alg».proof.Proof.Gen.Kernel
import proofs.«118492_j35536559407742_1_alg».proof.Proof.Gen.Kernel.Frame
import proofs.«118492_j35536559407742_1_alg».proof.Proof.Gen.KernelIdeal
import proofs.«118492_j35536559407742_1_alg».proof.Proof.Gen.KernelIdeal.Frame
import proofs.«118492_j35536559407742_1_alg».proof.Proof.Gen.KernelIdeal.Value
import proofs.«118492_j35536559407742_1_alg».proof.Proof.Gen.ReferenceIdeal
import proofs.«118492_j35536559407742_1_alg».proof.Proof.Gen.ReferenceIdeal.Run
import proofs.«118492_j35536559407742_1_alg».proof.Proof.Gen.ReferenceIdeal.Read
import proofs.«118492_j35536559407742_1_alg».proof.Proof.Gen.Pre_finite_inputs
import proofs.«118492_j35536559407742_1_alg».proof.Proof.Fold
import proofs.«118492_j35536559407742_1_alg».proof.Proof.RefLayer
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array ends at the layer function of its arguments, the reference's result at the layer
    function of its own; the arguments agree. -/
theorem algebraic : Cert.algebraic_KernelIdeal_ReferenceIdeal := by
  intro m ρ m' ρ' _ hagree
  refine ⟨fun c => Cert.KernelIdeal.Fold.result m c, Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v11_eq _ _ _).trans ?_
  refine (Cert.ReferenceIdeal.RefLayer.ref_eq_layer _ _ _).trans ?_
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
